-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S20000x128 .f32) (main_arg1 : IVec S2x640000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S2000x128 : Shape := ⟨2, ![2000, 128]⟩

abbrev nBuf : Space → Nat
  | .hbm => 42
  | .vmem => 18
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S20000x128, .f32⟩
  | .hbm, ⟨23, _⟩ => ⟨S640000x1, .i32⟩
  | .hbm, ⟨24, _⟩ => ⟨S20000x128, .f32⟩
  | .hbm, ⟨25, _⟩ => ⟨S1x128, .f32⟩
  | .hbm, ⟨26, _⟩ => ⟨S20000x128, .f32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S_, .f32⟩
  | .hbm, ⟨37, _⟩ => ⟨S20000x128, .f32⟩
  | .hbm, ⟨38, _⟩ => ⟨S640000x1, .i32⟩
  | .hbm, ⟨39, _⟩ => ⟨S20000x128, .f32⟩
  | .hbm, ⟨40, _⟩ => ⟨S1x128, .f32⟩
  | .hbm, ⟨41, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S20000x128.size a
  hwx1_5 : ∀ i : grid1.Coords, EltTy.bits .f32 = 32 ∨ (Rect.block (s := S20000x128) S2000x128.size (cc1_transform_5 i) (hinb1_5 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S20000x128, .f32⟩
  | .hbm, ⟨23, _⟩ => ⟨S640000x1, .i32⟩
  | .hbm, ⟨24, _⟩ => ⟨S20000x128, .f32⟩
  | .hbm, ⟨25, _⟩ => ⟨S20000x128, .f32⟩
  | .hbm, ⟨26, _⟩ => ⟨S1x128, .f32⟩
  | .hbm, ⟨27, _⟩ => ⟨S20000x128, .f32⟩
  | .hbm, ⟨28, _⟩ => ⟨S20000x128, .f32⟩
  | .hbm, ⟨29, _⟩ => ⟨S20000x128, .f32⟩
  | .hbm, ⟨30, _⟩ => ⟨S20000x128, .f32⟩
  | .hbm, ⟨31, _⟩ => ⟨S_, .f32⟩
  | .hbm, ⟨32, _⟩ => ⟨S20000x128, .f32⟩
  | .hbm, ⟨33, _⟩ => ⟨S20000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S20000x128, .f32⟩
  | .hbm, ⟨45, _⟩ => ⟨S640000x1, .i32⟩
  | .hbm, ⟨46, _⟩ => ⟨S20000x128, .f32⟩
  | .hbm, ⟨47, _⟩ => ⟨S20000x128, .f32⟩
  | .hbm, ⟨48, _⟩ => ⟨S1x128, .f32⟩
  | .hbm, ⟨49, _⟩ => ⟨S20000x128, .f32⟩
  | .hbm, ⟨50, _⟩ => ⟨S20000x128, .f32⟩
  | .hbm, ⟨51, _⟩ => ⟨S20000x128, .f32⟩
  | .hbm, ⟨52, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.Spec.lean ====
/-
  What both programs compute, stated once over the extended reals.

  A graph-convolution layer sends node features `X` (20000 nodes, 128 features each) and the neighbour sums `A`
  (row `n` of `A` is the sum of the feature rows of the nodes with an edge into `n`) to
  `(A · W_rel + b) + X · W_root`: entry `(n, f)` is `(∑ₖ A[n,k] · W_rel[k,f] + b[f]) + ∑ₖ X[n,k] · W_root[k,f]`,
  the two sums over the 128 input features, bracketed as written. The network is two such layers with
  `max(·, 0)` between them; the second layer aggregates the first layer's output over the same edges.
  The aggregation itself is a parameter here: both programs compute it by the same gather and scatter-add,
  and nothing below depends on what it is.
-/
import Idealize.ShloMosaic.PureOps.Ideal
import Idealize.ShloMosaic.Lib.ValueIdx

noncomputable section

open scoped BigOperators

namespace Cert.Spec

open Idealize.ShloMosaic Idealize.ShloMosaic.ValueIdx

/-- Node features: 20000 nodes by 128 features. -/
abbrev Nodes : Shape := ⟨2, ![20000, 128]⟩
/-- A weight matrix: 128 input features by 128 output features. -/
abbrev Weights : Shape := ⟨2, ![128, 128]⟩
/-- A bias: one entry per output feature. -/
abbrev Bias : Shape := ⟨1, ![128]⟩

/-- One layer's linear stage at entry `(n, f)`: the neighbour sums through `Wrel`, plus the bias, plus the
    node's own features through `Wroot`. -/
def conv (X A : FVec Ideal Nodes .f32) (Wrel Wroot : FVec Ideal Weights .f32) (b : FVec Ideal Bias .f32) :
    FVec Ideal Nodes .f32 :=
  fun i => ((∑ k : Fin 128, A (ix2 (i 0) k) * Wrel (ix2 k (i 1))) + b (ix1 (i 1)))
    + ∑ k : Fin 128, X (ix2 (i 0) k) * Wroot (ix2 k (i 1))

/-- The rectifier, entry by entry: the larger of the entry and the float zero. -/
def relu (Z : FVec Ideal Nodes .f32) : FVec Ideal Nodes .f32 :=
  fun i => max (Z i) (FloatOps.ofBits (F := Ideal) .f32 0x00000000#32)

/-- The hidden features: the first layer of the input features and their neighbour sums, rectified. -/
def hidden (agg : FVec Ideal Nodes .f32 → FVec Ideal Nodes .f32) (x : FVec Ideal Nodes .f32)
    (W1rel : FVec Ideal Weights .f32) (b1 : FVec Ideal Bias .f32) (W1root : FVec Ideal Weights .f32) :
    FVec Ideal Nodes .f32 :=
  relu (conv x (agg x) W1rel W1root b1)

/-- The network: the second layer of the hidden features and THEIR neighbour sums, not rectified. -/
def net (agg : FVec Ideal Nodes .f32 → FVec Ideal Nodes .f32) (x : FVec Ideal Nodes .f32)
    (W1rel : FVec Ideal Weights .f32) (b1 : FVec Ideal Bias .f32) (W1root : FVec Ideal Weights .f32)
    (W2rel : FVec Ideal Weights .f32) (b2 : FVec Ideal Bias .f32) (W2root : FVec Ideal Weights .f32) :
    FVec Ideal Nodes .f32 :=
  conv (hidden agg x W1rel b1 W1root) (agg (hidden agg x W1rel b1 W1root)) W2rel W2root b2

end Cert.Spec

end
-- ==== Proof.Payload.lean ====
/-
  The body of either pallas_call, read at one entry of its output block.

  A grid point loads a block of 2000 node rows `xb`, the matching 2000 rows of neighbour sums `ab`, the two weight
  matrices whole and the bias as a 1×128 row, and stores
  `(ab · wrel + bias) + xb · wroot` (the first call then takes `max(·, 0)`). Over the extended reals the bf16 casts
  are the identity and a matrix product into a zero accumulator is the plain sum over the 128 contracted
  features, so entry `(p, q)` of the stored block is
  `(∑ₖ ab[p,k] · wrel[k,q] + bias[0,q]) + ∑ₖ xb[p,k] · wroot[k,q]`.
-/
import proofs.«113555_j60971355734041_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.TcCoe Idealize.ShloMosaic.ValueIdx

/-! ## The block's matrix product at an entry -/

theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000×128 block times a 128×128 matrix, accumulated into zeros, at entry `(p, q)`: the sum over the
    contracted feature `k` of `l[p,k] · r[k,q]`. -/
theorem matmul_zero_apply {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row broadcast down the block's 2000 rows, at entry `(p, q)`: the row's entry `q`. -/
theorem bias_apply (bb : FVec Ideal S1x128 .f32) (p : Fin 2000) (q : Fin 128) :
    broadcastTo S2000x128 bb broadcasts_S1x128_S2000x128 (ix2 p q) = bb (ix2 (0 : Fin 1) q) :=
  broadcastTo_apply bb broadcasts_S1x128_S2000x128 (ix2 p q) (ix2 (0 : Fin 1) q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-! ## The two bodies -/

/-- The first call's stored block at entry `(p, q)`. -/
theorem pay0_apply (xb ab : Vec Ideal S2000x128 .f32) (wrel wroot : Vec Ideal S128x128 .f32) (bb : Vec Ideal S1x128 .f32)
    (p : Fin 2000) (q : Fin 128) :
    k0_pay1 (F := Ideal) xb ab wrel wroot bb (ix2 p q)
      = max (((∑ k : Fin 128, ab (ix2 p k) * wrel (ix2 k q)) + bb (ix2 (0 : Fin 1) q))
          + ∑ k : Fin 128, xb (ix2 p k) * wroot (ix2 k q)) (FloatOps.ofBits (F := Ideal) .f32 0x00000000#32) := by
  unfold k0_pay1
  simp only [shapeCast_self]
  show max ((matmul (F := Ideal) dot_S2000x128_S128x128_S2000x128_1_0_0_1_n_n none _ _ (constant (F := Ideal) S2000x128 .f32 0x00000000#32) (ix2 p q)
      + broadcastTo S2000x128 bb broadcasts_S1x128_S2000x128 (ix2 p q))
      + matmul (F := Ideal) dot_S2000x128_S128x128_S2000x128_1_0_0_1_n_n none _ _ (constant (F := Ideal) S2000x128 .f32 0x00000000#32) (ix2 p q)) _ = _
  rw [matmul_zero_apply, matmul_zero_apply, bias_apply]
  rfl

/-- The second call's stored block at entry `(p, q)`: the same without the rectifier. -/
theorem pay1_apply (xb ab : Vec Ideal S2000x128 .f32) (wrel wroot : Vec Ideal S128x128 .f32) (bb : Vec Ideal S1x128 .f32)
    (p : Fin 2000) (q : Fin 128) :
    k1_pay1 (F := Ideal) xb ab wrel wroot bb (ix2 p q)
      = ((∑ k : Fin 128, ab (ix2 p k) * wrel (ix2 k q)) + bb (ix2 (0 : Fin 1) q))
          + ∑ k : Fin 128, xb (ix2 p k) * wroot (ix2 k q) := by
  unfold k1_pay1
  simp only [shapeCast_self]
  show (matmul (F := Ideal) dot_S2000x128_S128x128_S2000x128_1_0_0_1_n_n none _ _ (constant (F := Ideal) S2000x128 .f32 0x00000000#32) (ix2 p q)
      + broadcastTo S2000x128 bb broadcasts_S1x128_S2000x128 (ix2 p q))
      + matmul (F := Ideal) dot_S2000x128_S128x128_S2000x128_1_0_0_1_n_n none _ _ (constant (F := Ideal) S2000x128 .f32 0x00000000#32) (ix2 p q) = _
  rw [matmul_zero_apply, matmul_zero_apply, bias_apply]
  rfl

end Cert.KernelIdeal.Payload

end
-- ==== Proof.Blocks0.lean ====
/-
  The first pallas_call's output array, whole.

  The call runs over ten grid points; point `t` reads node rows `2000·t … 2000·t + 1999` of the features and of the
  neighbour sums, the two weight matrices and the bias row whole, and writes back rows `2000·t … 2000·t + 1999` of the
  output. What it writes is the layer's entries for exactly those rows (the body read at an entry, each loaded
  block read back to its array), and the ten row blocks tile the 20000 rows, so the output array ends holding
  the rectified layer of the arrays the call was entered with.
-/
import proofs.«113555_j60971355734041_1_alg».proof.Proof.Gen.KernelIdeal.Frame
import proofs.«113555_j60971355734041_1_alg».proof.Proof.Payload
import proofs.«113555_j60971355734041_1_alg».proof.Proof.Spec
import Idealize.ShloMosaic.Lib.Pipeline.Value

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias as the calls take it, a 1×128 row, read as a vector of 128 entries. -/
def rowBias (B : FVec Ideal S1x128 .f32) : FVec Ideal Cert.Spec.Bias .f32 := fun i => B (ix2 (0 : Fin 1) (i 0))

/-- The first call's output as one function of the arrays it is entered with: the rectified layer. -/
def layer0 (X A : FVec Ideal S20000x128 .f32) (Wrel Wroot : FVec Ideal S128x128 .f32) (B : FVec Ideal S1x128 .f32) :
    FVec Ideal S20000x128 .f32 :=
  Cert.Spec.relu (Cert.Spec.conv X A Wrel Wroot (rowBias B))

/-- The printed index maps over the grid: the row-blocked windows (features, neighbour sums, output) are at
    block `(t, 0)` at point `t`, the weights and the bias always at block `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is rows `2000·t …` of the rectified layer of the entry arrays. -/
theorem flushed0 (c : Dev nD) (t : Fin cfg0.N) :
    (dat0 V c).flushed 5 t = ((cfg0.win 5).blk t).view.read (Elt Ideal)
      (layer0 (V c main_arg0) (V c main_v13) (V c main_arg2) (V c main_arg4) (V c main_v14)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx0 t
  have ht : t.val < 10 := lt_of_lt_of_eq t.isLt N_0
  funext j
  obtain ⟨p, q, rfl⟩ : ∃ (p : Fin 2000) (q : Fin 128), j = ix2 p q := ⟨j 0, j 1, eq_ix2 j⟩
  have hp : p.val < 2000 := p.isLt
  have hq : q.val < 128 := q.isLt
  show k0_pay1 (F := Ideal) (iblk0 V c 0 t) (iblk0 V c 1 t) (iblk0 V c 2 t) (iblk0 V c 3 t) (iblk0 V c 4 t) (ix2 p q)
    = layer0 (V c main_arg0) (V c main_v13) (V c main_arg2) (V c main_arg4) (V c main_v14) (((cfg0.win 5).blk t).view.emb (ix2 p q))
  refine (Payload.pay0_apply (iblk0 V c 0 t) (iblk0 V c 1 t) (iblk0 V c 2 t) (iblk0 V c 3 t) (iblk0 V c 4 t) p q).trans ?_
  -- the output entry's place in the array: row 2000·t + p, column q
  have hemb : ((cfg0.win 5).blk t).view.emb (ix2 p q) = ix2 (⟨t.val * 2000 + p.val, by omega⟩ : Fin 20000) q := by
    funext a; apply Fin.ext
    match a with
    | ⟨0, _⟩ => show win0_5.index t (0 : Fin 2) * 2000 + 1 * p.val = t.val * 2000 + p.val; rw [e50]; omega
    | ⟨1, _⟩ => show win0_5.index t (1 : Fin 2) * 128 + 1 * q.val = q.val; rw [e51]; omega
  refine Eq.trans ?_ (congrArg (layer0 (V c main_arg0) (V c main_v13) (V c main_arg2) (V c main_arg4) (V c main_v14)) hemb).symm
  -- each loaded block read back to its array
  have hA : ∀ k : Fin 128, iblk0 V c 1 t (ix2 p k) = V c main_v13 (ix2 (⟨t.val * 2000 + p.val, by omega⟩ : Fin 20000) k) := fun k => by
    show V c main_v13 (((cfg0.win 1).blk t).view.emb (ix2 p k)) = _
    refine congrArg (V c main_v13) (funext fun a => Fin.ext ?_)
    match a with
    | ⟨0, _⟩ => show win0_1.index t (0 : Fin 2) * 2000 + 1 * p.val = t.val * 2000 + p.val; rw [e10]; omega
    | ⟨1, _⟩ => show win0_1.index t (1 : Fin 2) * 128 + 1 * k.val = k.val; rw [e11]; omega
  have hX : ∀ k : Fin 128, iblk0 V c 0 t (ix2 p k) = V c main_arg0 (ix2 (⟨t.val * 2000 + p.val, by omega⟩ : Fin 20000) k) := fun k => by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * k.val = k.val; rw [e01]; omega
  have hWrel : ∀ k : Fin 128, iblk0 V c 2 t (ix2 k q) = V c main_arg2 (ix2 k q) := fun k => by
    show V c main_arg2 (((cfg0.win 2).blk t).view.emb (ix2 k q)) = _
    refine congrArg (V c main_arg2) (funext fun a => Fin.ext ?_)
    match a with
    | ⟨0, _⟩ => show win0_2.index t (0 : Fin 2) * 128 + 1 * k.val = k.val; rw [e20]; omega
    | ⟨1, _⟩ => show win0_2.index t (1 : Fin 2) * 128 + 1 * q.val = q.val; rw [e21]; omega
  have hWroot : ∀ k : Fin 128, iblk0 V c 3 t (ix2 k q) = V c main_arg4 (ix2 k q) := fun k => by
    show V c main_arg4 (((cfg0.win 3).blk t).view.emb (ix2 k q)) = _
    refine congrArg (V c main_arg4) (funext fun a => Fin.ext ?_)
    match a with
    | ⟨0, _⟩ => show win0_3.index t (0 : Fin 2) * 128 + 1 * k.val = k.val; rw [e30]; omega
    | ⟨1, _⟩ => show win0_3.index t (1 : Fin 2) * 128 + 1 * q.val = q.val; rw [e31]; omega
  have hB : iblk0 V c 4 t (ix2 (0 : Fin 1) q) = V c main_v14 (ix2 (0 : Fin 1) q) := by
    show V c main_v14 (((cfg0.win 4).blk t).view.emb (ix2 (0 : Fin 1) q)) = _
    refine congrArg (V c main_v14) (funext fun a => Fin.ext ?_)
    match a with
    | ⟨0, _⟩ => show win0_4.index t (0 : Fin 2) * 1 + 1 * 0 = 0; rw [e40]
    | ⟨1, _⟩ => show win0_4.index t (1 : Fin 2) * 128 + 1 * q.val = q.val; rw [e41]; omega
  simp only [hA, hX, hWrel, hWroot, hB]
  rfl

/-- An index of the output array is in point `t`'s block iff each coordinate is in the block's range. -/
theorem mem_blk0 (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v15).slice (win0_5.rect t)).set ↔ _
  rw [View.set_slice_whole, Rect.mem_set_unit]
  exact Iff.rfl

/-- Every entry of the output array is in the block of the point that holds its row: point `row / 2000`. -/
theorem cover0 (i : S20000x128.Idx) : ∃ t : Fin cfg0.N, (cfg0.win 5).flush t = true ∧ i ∈ ((cfg0.win 5).blk t).view.set := by
  have hi0 : (i 0).val < 20000 := (i 0).isLt
  have hi1 : (i 1).val < 128 := (i 1).isLt
  have hN : cfg0.N = 10 := N_0
  obtain ⟨t, htv⟩ : ∃ t : Fin cfg0.N, t.val = (i 0).val / 2000 :=
    ⟨⟨(i 0).val / 2000, lt_of_lt_of_eq (by omega : (i 0).val / 2000 < 10) hN.symm⟩, rfl⟩
  obtain ⟨-, -, -, -, -, -, -, -, -, -, e50, e51⟩ := idx0 t
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; rw [e50]; omega
  | ⟨1, _⟩ => show win0_5.index t (1 : Fin 2) * 128 ≤ (i 1).val ∧ (i 1).val < win0_5.index t (1 : Fin 2) * 128 + 128; rw [e51]; omega

/-- The first call's output array after the call: the rectified layer of the arrays it was entered with. -/
theorem final0 (c : Dev nD) :
    (dat0 V c).arrAt 5 cfg0.N = layer0 (V c main_arg0) (V c main_v13) (V c main_arg2) (V c main_arg4) (V c main_v14) :=
  (dat0 V c).arrAt_eq_of_cover 5 _ (fun t _ => flushed0 V c t) (fun i => cover0 i)

end Cert.KernelIdeal.Blocks

end
-- ==== Proof.Blocks1.lean ====
/-
  The second pallas_call's output array, whole.

  The same ten-point grid as the first call: point `t` reads rows `2000·t … 2000·t + 1999` of the hidden features and
  of their neighbour sums, the second layer's weight matrices and bias row whole, and writes back the same rows of
  the result. The body does not rectify, so the result array ends holding the plain layer of the arrays the
  call was entered with.
-/
import proofs.«113555_j60971355734041_1_alg».proof.Proof.Gen.KernelIdeal.Frame
import proofs.«113555_j60971355734041_1_alg».proof.Proof.Payload
import proofs.«113555_j60971355734041_1_alg».proof.Proof.Spec
import proofs.«113555_j60971355734041_1_alg».proof.Proof.Blocks0
import Idealize.ShloMosaic.Lib.Pipeline.Value

set_option maxRecDepth 16384

noncomputable section

open scoped BigOperators

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The second call's output as one function of the arrays it is entered with: the layer, not rectified. -/
def layer1 (X A : FVec Ideal S20000x128 .f32) (Wrel Wroot : FVec Ideal S128x128 .f32) (B : FVec Ideal S1x128 .f32) :
    FVec Ideal S20000x128 .f32 :=
  Cert.Spec.conv X A Wrel Wroot (rowBias B)

/-- The second call's index maps over its grid: the row-blocked windows are at block `(t, 0)` at point `t`, the
    weights and the bias always at block `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` of the second call writes back is rows `2000·t …` of the layer of its entry arrays. -/
theorem flushed1 (c : Dev nD) (t : Fin cfg1.N) :
    (dat1 V c).flushed 5 t = ((cfg1.win 5).blk t).view.read (Elt Ideal)
      (layer1 (V c main_v15) (V c main_v25) (V c main_arg5) (V c main_arg7) (V c main_v26)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx1 t
  have ht : t.val < 10 := lt_of_lt_of_eq t.isLt N_1
  funext j
  obtain ⟨p, q, rfl⟩ : ∃ (p : Fin 2000) (q : Fin 128), j = ix2 p q := ⟨j 0, j 1, eq_ix2 j⟩
  have hp : p.val < 2000 := p.isLt
  have hq : q.val < 128 := q.isLt
  show k1_pay1 (F := Ideal) (iblk1 V c 0 t) (iblk1 V c 1 t) (iblk1 V c 2 t) (iblk1 V c 3 t) (iblk1 V c 4 t) (ix2 p q)
    = layer1 (V c main_v15) (V c main_v25) (V c main_arg5) (V c main_arg7) (V c main_v26) (((cfg1.win 5).blk t).view.emb (ix2 p q))
  refine (Payload.pay1_apply (iblk1 V c 0 t) (iblk1 V c 1 t) (iblk1 V c 2 t) (iblk1 V c 3 t) (iblk1 V c 4 t) p q).trans ?_
  -- the result entry's place in the array: row 2000·t + p, column q
  have hemb : ((cfg1.win 5).blk t).view.emb (ix2 p q) = ix2 (⟨t.val * 2000 + p.val, by omega⟩ : Fin 20000) q := by
    funext a; apply Fin.ext
    match a with
    | ⟨0, _⟩ => show win1_5.index t (0 : Fin 2) * 2000 + 1 * p.val = t.val * 2000 + p.val; rw [e50]; omega
    | ⟨1, _⟩ => show win1_5.index t (1 : Fin 2) * 128 + 1 * q.val = q.val; rw [e51]; omega
  refine Eq.trans ?_ (congrArg (layer1 (V c main_v15) (V c main_v25) (V c main_arg5) (V c main_arg7) (V c main_v26)) hemb).symm
  -- each loaded block read back to its array
  have hA : ∀ k : Fin 128, iblk1 V c 1 t (ix2 p k) = V c main_v25 (ix2 (⟨t.val * 2000 + p.val, by omega⟩ : Fin 20000) k) := fun k => by
    show V c main_v25 (((cfg1.win 1).blk t).view.emb (ix2 p k)) = _
    refine congrArg (V c main_v25) (funext fun a => Fin.ext ?_)
    match a with
    | ⟨0, _⟩ => show win1_1.index t (0 : Fin 2) * 2000 + 1 * p.val = t.val * 2000 + p.val; rw [e10]; omega
    | ⟨1, _⟩ => show win1_1.index t (1 : Fin 2) * 128 + 1 * k.val = k.val; rw [e11]; omega
  have hX : ∀ k : Fin 128, iblk1 V c 0 t (ix2 p k) = V c main_v15 (ix2 (⟨t.val * 2000 + p.val, by omega⟩ : Fin 20000) k) := fun k => by
    show V c main_v15 (((cfg1.win 0).blk t).view.emb (ix2 p k)) = _
    refine congrArg (V c main_v15) (funext fun a => Fin.ext ?_)
    match a with
    | ⟨0, _⟩ => show win1_0.index t (0 : Fin 2) * 2000 + 1 * p.val = t.val * 2000 + p.val; rw [e00]; omega
    | ⟨1, _⟩ => show win1_0.index t (1 : Fin 2) * 128 + 1 * k.val = k.val; rw [e01]; omega
  have hWrel : ∀ k : Fin 128, iblk1 V c 2 t (ix2 k q) = V c main_arg5 (ix2 k q) := fun k => by
    show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; rw [e20]; omega
    | ⟨1, _⟩ => show win1_2.index t (1 : Fin 2) * 128 + 1 * q.val = q.val; rw [e21]; omega
  have hWroot : ∀ k : Fin 128, iblk1 V c 3 t (ix2 k q) = V c main_arg7 (ix2 k q) := fun k => by
    show V c main_arg7 (((cfg1.win 3).blk t).view.emb (ix2 k q)) = _
    refine congrArg (V c main_arg7) (funext fun a => Fin.ext ?_)
    match a with
    | ⟨0, _⟩ => show win1_3.index t (0 : Fin 2) * 128 + 1 * k.val = k.val; rw [e30]; omega
    | ⟨1, _⟩ => show win1_3.index t (1 : Fin 2) * 128 + 1 * q.val = q.val; rw [e31]; omega
  have hB : iblk1 V c 4 t (ix2 (0 : Fin 1) q) = V c main_v26 (ix2 (0 : Fin 1) q) := by
    show V c main_v26 (((cfg1.win 4).blk t).view.emb (ix2 (0 : Fin 1) q)) = _
    refine congrArg (V c main_v26) (funext fun a => Fin.ext ?_)
    match a with
    | ⟨0, _⟩ => show win1_4.index t (0 : Fin 2) * 1 + 1 * 0 = 0; rw [e40]
    | ⟨1, _⟩ => show win1_4.index t (1 : Fin 2) * 128 + 1 * q.val = q.val; rw [e41]; omega
  simp only [hA, hX, hWrel, hWroot, hB]
  rfl

/-- An index of the result array is in point `t`'s block iff each coordinate is in the block's range. -/
theorem mem_blk1 (t : Fin cfg1.N) (i : S20000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v27).slice (win1_5.rect t)).set ↔ _
  rw [View.set_slice_whole, Rect.mem_set_unit]
  exact Iff.rfl

/-- Every entry of the result array is in the block of the point that holds its row: point `row / 2000`. -/
theorem cover1 (i : S20000x128.Idx) : ∃ t : Fin cfg1.N, (cfg1.win 5).flush t = true ∧ i ∈ ((cfg1.win 5).blk t).view.set := by
  have hi0 : (i 0).val < 20000 := (i 0).isLt
  have hi1 : (i 1).val < 128 := (i 1).isLt
  have hN : cfg1.N = 10 := N_1
  obtain ⟨t, htv⟩ : ∃ t : Fin cfg1.N, t.val = (i 0).val / 2000 :=
    ⟨⟨(i 0).val / 2000, lt_of_lt_of_eq (by omega : (i 0).val / 2000 < 10) hN.symm⟩, rfl⟩
  obtain ⟨-, -, -, -, -, -, -, -, -, -, e50, e51⟩ := idx1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; rw [e50]; omega
  | ⟨1, _⟩ => show win1_5.index t (1 : Fin 2) * 128 ≤ (i 1).val ∧ (i 1).val < win1_5.index t (1 : Fin 2) * 128 + 128; rw [e51]; omega

/-- The result array after the second call: the layer of the arrays the call was entered with. -/
theorem final1 (c : Dev nD) :
    (dat1 V c).arrAt 5 cfg1.N = layer1 (V c main_v15) (V c main_v25) (V c main_arg5) (V c main_arg7) (V c main_v26) :=
  (dat1 V c).arrAt_eq_of_cover 5 _ (fun t _ => flushed1 V c t) (fun i => cover1 i)

end Cert.KernelIdeal.Blocks

end
-- ==== Proof.KernelChain.lean ====
/-
  The kernel program's result array, followed through @main.

  @main computes the neighbour sums of the input features on the host, runs the first pallas_call on them, computes
  the neighbour sums of ITS output on the host by the same gather and scatter-add over the same edge list, and runs
  the second pallas_call. Read stretch by stretch: the first call is entered with the features, their neighbour
  sums, the first layer's weights and its bias as a row, and leaves the rectified first layer; the second is
  entered with that array, its neighbour sums, the second layer's weights and bias row, and leaves the second
  layer. So the result array ends holding the specification's network of the arguments.
-/
import proofs.«113555_j60971355734041_1_alg».proof.Proof.Gen.KernelIdeal.Frame
import proofs.«113555_j60971355734041_1_alg».proof.Proof.Blocks0
import proofs.«113555_j60971355734041_1_alg».proof.Proof.Blocks1
import proofs.«113555_j60971355734041_1_alg».proof.Proof.Spec
import Idealize.ShloMosaic.Lib.StableHlo.Run
import Idealize.ShloMosaic.Lib.Pipeline.Value

set_option maxRecDepth 16384

noncomputable section

namespace Cert.KernelIdeal.Chain

open Cert.KernelIdeal Cert.KernelIdeal.Gen Cert.KernelIdeal.Blocks
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The host's gather and scatter-add -/

/-- The edges' source nodes: row 0 of the edge list. -/
def srcOf (e : (⟨S2x640000, .i32⟩ : BufTy).Contents (Elt Ideal)) : (⟨S640000, .i32⟩ : BufTy).Contents (Elt Ideal) :=
  shapeCast _ (extractStridedSlice S1x640000 ![0, 0] e slices_S2x640000_S1x640000_0_0) shapeCasts_S1x640000_S640000
/-- The edges' destination nodes: row 1 of the edge list. -/
def dstOf (e : (⟨S2x640000, .i32⟩ : BufTy).Contents (Elt Ideal)) : (⟨S640000, .i32⟩ : BufTy).Contents (Elt Ideal) :=
  shapeCast _ (extractStridedSlice S1x640000 ![1, 0] e slices_S2x640000_S1x640000_1_0) shapeCasts_S1x640000_S640000

/-- The neighbour sums of `X` over edges `src → dst`: row `src` of `X` gathered for every edge (a negative source
    index counted from the end), then added into row `dst` of a zero array. -/
def aggOver (src dst : (⟨S640000, .i32⟩ : BufTy).Contents (Elt Ideal)) (X : FVec Ideal S20000x128 .f32) : FVec Ideal S20000x128 .f32 :=
  Host.scatterAdd (F := Ideal) scatter_S20000x128_S640000x1_S640000x128_1_0_0_1
    (broadcastInDim S20000x128 ![] bcast_S_S20000x128 (constant (F := Ideal) S_ .f32 0x00000000#32))
    (broadcastInDim S640000x1 ![0] bcast_S640000_S640000x1_0 dst)
    (Host.gather gather_S20000x128_S640000x1_S640000x128_1_0_n_n_0_1_1128 X
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 20000#32))) src)))

/-- The neighbour sums over an edge list. -/
def agg (e : (⟨S2x640000, .i32⟩ : BufTy).Contents (Elt Ideal)) (X : FVec Ideal S20000x128 .f32) : FVec Ideal S20000x128 .f32 :=
  aggOver (srcOf e) (dstOf e) X

/-! ## The first call's entry contents -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
/-- The source and destination rows of the edge list, as the first stretch leaves them. -/
theorem W1_src (c : Dev nD) : W1 m ρ c (Proc.devRef .tc main_v1) = srcOf (m ((c : Thread nD τ).loc main_arg1)) := by
  show StableHlo.after hostOps0 (W0 m ρ c) (Proc.devRef .tc main_v1) = _
  after_results
  rfl
theorem W1_dst (c : Dev nD) : W1 m ρ c (Proc.devRef .tc main_v3) = dstOf (m ((c : Thread nD τ).loc main_arg1)) := by
  show StableHlo.after hostOps0 (W0 m ρ c) (Proc.devRef .tc main_v3) = _
  after_results
  rfl
/-- The first call's neighbour sums: of the input features. -/
theorem W1_agg (c : Dev nD) : W1 m ρ c (Proc.devRef .tc main_v13)
    = agg (m ((c : Thread nD τ).loc main_arg1)) (m ((c : Thread nD τ).loc main_arg0)) := by
  show StableHlo.after hostOps0 (W0 m ρ c) (Proc.devRef .tc main_v13) = _
  after_results
  rfl
/-- The first layer's bias as a row. -/
theorem W1_bias (c : Dev nD) : W1 m ρ c (Proc.devRef .tc main_v14)
    = shapeCast S1x128 (m ((c : Thread nD τ).loc main_arg3)) shapeCasts_S128_S1x128 := by
  show StableHlo.after hostOps0 (W0 m ρ c) (Proc.devRef .tc main_v14) = _
  after_results
  rfl

/-- A bias reshaped to a row and read back as a vector is the bias. -/
theorem rowBias_shapeCast (b : FVec Ideal S128 .f32) : rowBias (shapeCast S1x128 b shapeCasts_S128_S1x128) = b := by
  funext i
  unfold rowBias
  refine (shapeCast_apply b shapeCasts_S128_S1x128 (ix2 (0 : Fin 1) (i 0)) i ?_)
  rw [Shape.rowMajor_val_two, Shape.rowMajor_val_one]
  show (i 0).val = 0 * 128 + (i 0).val
  omega

/-! ## The first call's output, and the second call's entry contents -/

/-- The hidden features, as the kernel program computes them. -/
abbrev hid (c : Dev nD) : FVec Ideal S20000x128 .f32 :=
  Cert.Spec.hidden (agg (m ((c : Thread nD τ).loc main_arg1))) (m ((c : Thread nD τ).loc main_arg0))
    (m ((c : Thread nD τ).loc main_arg2)) (m ((c : Thread nD τ).loc main_arg3)) (m ((c : Thread nD τ).loc main_arg4))

/-- After the first call its output array holds the hidden features. -/
theorem W2_hidden (c : Dev nD) : W2 m ρ c (Proc.devRef .tc main_v15) = hid m c := by
  refine (W2_arr m ρ c 5).trans ((final0 (V1 m ρ) c).trans ?_)
  show layer0 (W1 m ρ c (Proc.devRef .tc main_arg0)) (W1 m ρ c (Proc.devRef .tc main_v13)) (W1 m ρ c (Proc.devRef .tc main_arg2))
    (W1 m ρ c (Proc.devRef .tc main_arg4)) (W1 m ρ c (Proc.devRef .tc main_v14)) = _
  rw [W1_arg0, W1_agg, W1_arg2, W1_arg4, W1_bias]
  unfold layer0
  rw [rowBias_shapeCast]
  rfl

theorem W3_hidden (c : Dev nD) : W3 m ρ c (Proc.devRef .tc main_v15) = hid m c := by
  refine Eq.trans ?_ (W2_hidden m ρ c)
  show StableHlo.after hostOps1 (W2 m ρ c) (Proc.devRef .tc main_v15) = _
  after_results
/-- The second call's neighbour sums: of the hidden features, over the same edges. -/
theorem W3_agg (c : Dev nD) : W3 m ρ c (Proc.devRef .tc main_v25) = agg (m ((c : Thread nD τ).loc main_arg1)) (hid m c) := by
  have h : W3 m ρ c (Proc.devRef .tc main_v25)
      = aggOver (W2 m ρ c (Proc.devRef .tc main_v1)) (W2 m ρ c (Proc.devRef .tc main_v3)) (W2 m ρ c (Proc.devRef .tc main_v15)) := by
    show StableHlo.after hostOps1 (W2 m ρ c) (Proc.devRef .tc main_v25) = _
    after_results
    rfl
  rw [h, W2_hidden, W2_of_ne m ρ c main_v1 (by decide), W2_of_ne m ρ c main_v3 (by decide), W1_src, W1_dst]
  rfl
theorem W3_arg5 (c : Dev nD) : W3 m ρ c (Proc.devRef .tc main_arg5) = m ((c : Thread nD τ).loc main_arg5) := by
  refine Eq.trans ?_ ((W2_of_ne m ρ c main_arg5 (by decide)).trans (W1_arg5 m ρ c))
  show StableHlo.after hostOps1 (W2 m ρ c) (Proc.devRef .tc main_arg5) = _
  after_results
theorem W3_arg7 (c : Dev nD) : W3 m ρ c (Proc.devRef .tc main_arg7) = m ((c : Thread nD τ).loc main_arg7) := by
  refine Eq.trans ?_ ((W2_of_ne m ρ c main_arg7 (by decide)).trans (W1_arg7 m ρ c))
  show StableHlo.after hostOps1 (W2 m ρ c) (Proc.devRef .tc main_arg7) = _
  after_results
/-- The second layer's bias as a row. -/
theorem W3_bias (c : Dev nD) : W3 m ρ c (Proc.devRef .tc main_v26)
    = shapeCast S1x128 (m ((c : Thread nD τ).loc main_arg6)) shapeCasts_S128_S1x128 := by
  have h : W3 m ρ c (Proc.devRef .tc main_v26) = shapeCast S1x128 (W2 m ρ c (Proc.devRef .tc main_arg6)) shapeCasts_S128_S1x128 := by
    show StableHlo.after hostOps1 (W2 m ρ c) (Proc.devRef .tc main_v26) = _
    after_results
    rfl
  rw [h, W2_of_ne m ρ c main_arg6 (by decide), W1_arg6]

/-! ## The result -/

/-- After the second call the result array holds the network of the arguments. -/
theorem W4_result (c : Dev nD) : W4 m ρ c (Proc.devRef .tc main_v27)
    = Cert.Spec.net (agg (m ((c : Thread nD τ).loc main_arg1))) (m ((c : Thread nD τ).loc main_arg0))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ((final1 (V3 m ρ) c).trans ?_)
  show layer1 (W3 m ρ c (Proc.devRef .tc main_v15)) (W3 m ρ c (Proc.devRef .tc main_v25)) (W3 m ρ c (Proc.devRef .tc main_arg5))
    (W3 m ρ c (Proc.devRef .tc main_arg7)) (W3 m ρ c (Proc.devRef .tc main_v26)) = _
  rw [W3_hidden, W3_agg, W3_arg5, W3_arg7, W3_bias]
  unfold layer1
  rw [rowBias_shapeCast]
  rfl

end Cert.KernelIdeal.Chain

end
-- ==== Proof.RefSide.lean ====
/-
  The reference program's result is the specification's network.

  The reference computes, on the host, the neighbour sums of `x` (a gather of the source rows and a scatter-add
  into the destination rows), the first layer `(agg · W1_rel + b1) + x · W1_root`, `max(·, 0)`, the neighbour sums of
  that, and the second layer. Each `dot_general` read at an entry is the sum over the contracted feature, each
  bias broadcast reads the bias at the entry's column, and the additions are bracketed as the specification
  brackets them; the gather and scatter-add are carried as one function `agg`, never opened.
-/
import proofs.«113555_j60971355734041_1_alg».proof.Proof.Gen.ReferenceIdeal.Run
import proofs.«113555_j60971355734041_1_alg».proof.Proof.Gen.ReferenceIdeal.Read
import proofs.«113555_j60971355734041_1_alg».proof.Proof.Spec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The neighbour sums of a feature array `X` over the edge list `e`: row `src` of `X` gathered for every edge
    (a negative source index counted from the end), then added into row `dst` of a zero array. -/
def agg (e : (⟨S2x640000, .i32⟩ : BufTy).Contents (Elt Ideal)) (X : FVec Ideal S20000x128 .f32) : FVec Ideal S20000x128 .f32 :=
  Host.scatterAdd (F := Ideal) scatter_S20000x128_S640000x1_S640000x128_1_0_0_1 (val_main_v11 (F := Ideal)) (val_main_v12 (F := Ideal) e)
    (Host.gather gather_S20000x128_S640000x1_S640000x128_1_0_n_n_0_1_1128 X (val_main_v9 (F := Ideal) e))

/-! ## The index functions of the generated stage lemmas are the coordinates' own -/

theorem lidx14 (i : S20000x128.Idx) (k : Fin 128) : lidx_main_v14 i k = ix2 (i 0) k :=
  funext fun a => by match a with | ⟨0, _⟩ => rfl | ⟨1, _⟩ => rfl
theorem ridx14 (i : S20000x128.Idx) (k : Fin 128) : ridx_main_v14 i k = ix2 k (i 1) :=
  funext fun a => by match a with | ⟨0, _⟩ => rfl | ⟨1, _⟩ => rfl
theorem lidx18 (i : S20000x128.Idx) (k : Fin 128) : lidx_main_v18 i k = ix2 (i 0) k :=
  funext fun a => by match a with | ⟨0, _⟩ => rfl | ⟨1, _⟩ => rfl
theorem ridx18 (i : S20000x128.Idx) (k : Fin 128) : ridx_main_v18 i k = ix2 k (i 1) :=
  funext fun a => by match a with | ⟨0, _⟩ => rfl | ⟨1, _⟩ => rfl
theorem lidx31 (i : S20000x128.Idx) (k : Fin 128) : lidx_main_v31 i k = ix2 (i 0) k :=
  funext fun a => by match a with | ⟨0, _⟩ => rfl | ⟨1, _⟩ => rfl
theorem ridx31 (i : S20000x128.Idx) (k : Fin 128) : ridx_main_v31 i k = ix2 k (i 1) :=
  funext fun a => by match a with | ⟨0, _⟩ => rfl | ⟨1, _⟩ => rfl
theorem lidx35 (i : S20000x128.Idx) (k : Fin 128) : lidx_main_v35 i k = ix2 (i 0) k :=
  funext fun a => by match a with | ⟨0, _⟩ => rfl | ⟨1, _⟩ => rfl
theorem ridx35 (i : S20000x128.Idx) (k : Fin 128) : ridx_main_v35 i k = ix2 k (i 1) :=
  funext fun a => by match a with | ⟨0, _⟩ => rfl | ⟨1, _⟩ => rfl
/-- The bias broadcast to a row and then down the rows reads the bias at the entry's column. -/
theorem bidx16 (i : S20000x128.Idx) : idx_main_v15 (idx_main_v16 i) = ix1 (i 1) :=
  funext fun a => by match a with | ⟨0, _⟩ => rfl
theorem bidx33 (i : S20000x128.Idx) : idx_main_v32 (idx_main_v33 i) = ix1 (i 1) :=
  funext fun a => by match a with | ⟨0, _⟩ => rfl

/-! ## The two layers -/

/-- The first layer's neighbour sums are `agg` of the input features. -/
theorem v13_eq (x0 : (⟨S20000x128, .f32⟩ : BufTy).Contents (Elt Ideal)) (x1 : (⟨S2x640000, .i32⟩ : BufTy).Contents (Elt Ideal)) :
    val_main_v13 (F := Ideal) x0 x1 = agg x1 x0 := rfl

/-- The hidden features the reference computes are the specification's. -/
theorem v20_eq (x0 : (⟨S20000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v20 (F := Ideal) x0 x1 x2 x3 x4 = Cert.Spec.hidden (agg x1) x0 x2 x3 x4 := by
  funext i
  rw [val_main_v20_apply, val_main_v19_apply, val_main_v17_apply, val_main_v14_apply, val_main_v16_apply, val_main_v15_apply,
    val_main_v18_apply, val_main_call0_v0_apply, val_main_call0_cst_apply, v13_eq]
  simp only [lidx14, ridx14, lidx18, ridx18, bidx16]
  rfl

/-- The second layer's neighbour sums are `agg` of the hidden features: the same gather and scatter-add over the
    same edge list. -/
theorem v30_eq (x0 : (⟨S20000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v30 (F := Ideal) x0 x1 x2 x3 x4 = agg x1 (val_main_v20 (F := Ideal) x0 x1 x2 x3 x4) := rfl

/-- The reference's result is the network of the specification. -/
theorem v36_eq (x0 : (⟨S20000x128, .f32⟩ : BufTy).Contents (Elt Ideal)) (x1 : (⟨S2x640000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v36 (F := Ideal) x0 x1 x2 x3 x4 x5 x6 x7 = Cert.Spec.net (agg x1) x0 x2 x3 x4 x5 x6 x7 := by
  funext i
  rw [val_main_v36_apply, val_main_v34_apply, val_main_v31_apply, val_main_v33_apply, val_main_v32_apply, val_main_v35_apply,
    v30_eq, v20_eq]
  simp only [lidx31, ridx31, lidx35, ridx35, bidx33]
  rfl

/-- So the reference's run ends with its result array at the network of its arguments. -/
theorem res_eq (m : (ℓ : Loc nD τ sig) → Buf (Elt Ideal) ℓ) (c : Dev nD) :
    Cert.ReferenceIdeal.Value.res_main_v36 m c
      = Cert.Spec.net (agg (m ((c.tc : Thread nD τ).loc main_arg1))) (m ((c.tc : Thread nD τ).loc main_arg0))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  (val_main_v36_eq (F := Ideal) m c).trans (v36_eq _ _ _ _ _ _ _ _)

end Cert.ReferenceIdeal.RefValue

end
-- ==== Proof.lean ====
/-
  Two stacked graph-convolution layers, as a Pallas program and as plain jnp, compute one function over the
  extended reals.

  Both programs gather the source rows of the features along the edge list and scatter-add them into the
  destination rows (the neighbour sums), form `(sums · W_rel + b) + features · W_root`, take `max(·, 0)`, and repeat
  on the result without the final rectifier. The Pallas program does the two dense stages in kernels over row
  blocks of 2000 nodes, with its matrix operands cast to bf16 and accumulated into zeros; over the extended reals
  the casts are the identity and the accumulated product is the plain sum over the 128 contracted features, and
  the row blocks tile the 20000 nodes, so each kernel's output array is the whole layer. The additions are
  bracketed alike in both programs and the sums run over the same index in the same form, so no law of
  arithmetic is needed and the inputs' finiteness is never used: the two results are the same term,
  `Cert.Spec.net`, of the same aggregation.
-/
import proofs.«113555_j60971355734041_1_alg».proof.Defs
import proofs.«113555_j60971355734041_1_alg».proof.Proof.Gen.Kernel
import proofs.«113555_j60971355734041_1_alg».proof.Proof.Gen.Kernel.Skeleton
import proofs.«113555_j60971355734041_1_alg».proof.Proof.Gen.Kernel.Launch
import proofs.«113555_j60971355734041_1_alg».proof.Proof.Gen.Kernel.Points
import proofs.«113555_j60971355734041_1_alg».proof.Proof.Gen.Kernel.Frame
import proofs.«113555_j60971355734041_1_alg».proof.Proof.Gen.KernelIdeal
import proofs.«113555_j60971355734041_1_alg».proof.Proof.Gen.KernelIdeal.Skeleton
import proofs.«113555_j60971355734041_1_alg».proof.Proof.Gen.KernelIdeal.Launch
import proofs.«113555_j60971355734041_1_alg».proof.Proof.Gen.KernelIdeal.Points
import proofs.«113555_j60971355734041_1_alg».proof.Proof.Gen.KernelIdeal.Frame
import proofs.«113555_j60971355734041_1_alg».proof.Proof.Gen.ReferenceIdeal
import proofs.«113555_j60971355734041_1_alg».proof.Proof.Gen.ReferenceIdeal.Run
import proofs.«113555_j60971355734041_1_alg».proof.Proof.Gen.Pre_finite_inputs
import proofs.«113555_j60971355734041_1_alg».proof.Proof.Spec
import proofs.«113555_j60971355734041_1_alg».proof.Proof.KernelRun
import proofs.«113555_j60971355734041_1_alg».proof.Proof.KernelChain
import proofs.«113555_j60971355734041_1_alg».proof.Proof.RefSide
import Idealize.ShloMosaic.Adequacy
import Idealize.ShloMosaic.Init

set_option maxRecDepth 16384

noncomputable section

namespace Cert.Proof

open Idealize.ShloMosaic Idealize.SL.Sem

/-- The kernel program runs, and leaves its arguments as they were: the generated frame. -/
theorem frame_k : Cert.frame_Kernel := fun m ρ _ => Cert.Kernel.Gen.frame m ρ
/-- The same of its reading over the extended reals. -/
theorem frame_ki : Cert.frame_KernelIdeal := fun m ρ _ => Cert.KernelIdeal.Gen.frame m ρ
/-- The reference runs, and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two programs' neighbour sums are one function: the same gather of the source rows and the same scatter-add
    into the destination rows, over the same slices of the edge list. -/
theorem agg_eq : Cert.KernelIdeal.Chain.agg = Cert.ReferenceIdeal.RefValue.agg := rfl

/-- Run from memories that agree on the arguments, both programs end with the network of the arguments in their
    result arrays. -/
theorem algebraic : Cert.algebraic_KernelIdeal_ReferenceIdeal := by
  intro m ρ m' ρ' _ hagree
  refine ⟨fun c => Cert.Spec.net (Cert.KernelIdeal.Chain.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.W4_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.RefValue.res_eq, h0, h1, h2, h3, h4, h5, h6, h7, agg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
